-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  main_v3
-- ==== Kernel.lean ====
abbrev S16x2048x512 : Shape := ⟨3, ![16, 2048, 512]⟩
abbrev S1x512x512 : Shape := ⟨3, ![1, 512, 512]⟩
abbrev S1x2048x512 : Shape := ⟨3, ![1, 2048, 512]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x512x512, .f32⟩
  | .local _ .vmem, ⟨5, _⟩ => ⟨S1x512x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x512.size a
  hwx0_0 : ∀ i : grid0.Coords, EltTy.bits .f32 = 32 ∨ (Rect.block (s := S16x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x512.size a
  hwx0_1 : ∀ i : grid0.Coords, EltTy.bits .f32 = 32 ∨ (Rect.block (s := S16x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x2048x512.size a
  hwx0_2 : ∀ i : grid0.Coords, EltTy.bits .f32 = 32 ∨ (Rect.block (s := S16x2048x512) S1x512x512.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x2048, .f32⟩
  | .hbm, ⟨2, _⟩ => ⟨S_, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S16x1x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_1_1_2_2_0_0_wf : DotDims.WF S16x2048x2048 S16x2048x512 S16x2048x512 [1] [1] [2] [2] [0] [0]

variable [Facts₀]

def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_1_1_2_2_0_0 : DotDims S16x2048x2048 S16x2048x512 S16x2048x512 where
  lhsContracting := [1]
  rhsContracting := [1]
  lhsNonContracting := [2]
  rhsNonContracting := [2]
  lhsBatch := [0]
  rhsBatch := [0]
  wf := dot_S16x2048x2048_S16x2048x512_S16x2048x512_1_1_2_2_0_0_wf

class Facts : Prop extends Facts₀ where

variable [Facts]
-- ==== Proof.LibSharedFrame.lean ====
/-
  The frame run of a one-region program whose pipeline may hand ONE array to several windows.

  The library's frame run (`Pipeline.θ_run_frame`) asks that the windows' arrays be pairwise distinct buffers and
  that every window hold its array at the full share. Here the arrays need not be distinct: the proof says how the
  distinct buffers behind the arrays, each whole at the full share at the region-entry contents, make the
  proof data's `arrays` at entry (`hsplit`) — an array read through two input windows is split between them
  along its share, the proof data's `q` naming each half. The invariant between points is the core's scoped
  buffers that are no staging buffer, at some contents each (what a body that names no scratch never touches); the
  generator register is let go, so this is for a body that draws no random bits.

  The conclusion is the library's `Pipeline.FramePost`: every window's array holds what the library computes from
  the proof data (`Dat.arrAt … N`: an input its entry contents, an output those overwritten by what the body left at
  each write-back), and every other unscoped buffer what it held at the region's entry.
-/
import Idealize.ShloMosaic.Lib.Pipeline.Frame

noncomputable section

namespace Cert.Lib.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays, with an invariant the certificate states point by point:
    entered from the scoped rest before point 0 (`hin`) and returned to it after the last point (`hout`). -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) :=
  θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro HU
      isplitr
      · iempintro
      · iexact HU)
    (fun c => by
      refine (show _ ⊢ (scopedRest (cfgs p).spec c : sProp 𝕄) from ?_).trans (hin c)
      iintro ⟨-, HR⟩
      iexact HR)
    (fun c => by
      refine (hout c).trans ?_
      iintro HR
      isplitr
      · iempintro
      · iexact HR)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

/-- The same with the scoped rest itself as the invariant at every point: a body that names no scratch. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = (scopedRest (cfgs p).spec c : sProp 𝕄)) :
    θ_run (Pipeline.defs (fun q => Cfg.toPCfg (Val := Val) (cfgs q)) defs₀) (onTc main) (s₀ m g) (FramePost cfgs dats p V) :=
  θ_run_frame_shared_track cfgs dats p hinj hw hne harr hstage defs₀ 𝒱₀ m g main hbody howed V hmain hsplit
    (fun c => by rw [hΦ]) (fun c => by rw [hΦ])

/-- The proof data's `arrays`, every window's array a whole buffer: each window's buffer whole, at the window's own
    share (the library's `arrays_eq` asks every share to be the full one). -/
theorem arrays_eq_shares (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (F : (w : Fin (cfgs p).W) → Buf Val (((cfgs p).spec w).arr.view.loc (c.tc : Thread nD τ))) :
    (dats p c).arrays F
      = bigSep Finset.univ fun w => (((c.tc : Thread nD τ).loc (arrRef (cfgs p).spec w)) ↦{(dats p c).share w} F w : sProp 𝕄) := by
  unfold Dat.arrays
  exact Idealize.SL.BI.bigSep_congr fun w _ => by rw [(harr w).set_eq_univ]

/-- An array read through TWO input windows: the buffer whole at the full share is the two windows' halves. -/
theorem pointsTo_halves {ℓ : Loc nD τ sig} (f : Buf Val ℓ) :
    (ℓ ↦{fullShare} f : sProp 𝕄) ⊢ iprop((ℓ ↦{fullShare.left} f) ∗ ℓ ↦{fullShare.right} f) :=
  (pointsTo_share (PosShare.mem_left_op_right fullShare)).1

end Cert.Lib.SharedFrame

end
-- ==== Proof.FrameBits.lean ====
/-
  The frame of the attention kernel's one pallas_call, by hand: its pipeline hands the ONE argument array to two
  input windows (the query tile of 512 rows, and all 2048 rows as keys and values), so the argument's buffer is
  split between the two windows along its share, each window holding one half; the output window holds the result
  array outright.

  What the body finds and leaves, at every grid point (b, qi) of the 16 × 4 grid:
  * window 0's staging buffer holds rows qi·512 … qi·512+511 of batch b, window 1's all rows of batch b — fetched
    at that point or kept from the point before (the key/value block moves only when b does) — and the body leaves
    both as it found them;
  * window 2's staging buffer is read once (the value is not used) and then overwritten whole by the body's one
    store, whose value is the body's arithmetic on the two loaded blocks.
  The run then gives, for every window, its array after the last point as the library computes it from these data:
  the argument unchanged, the result overwritten block by block.
-/
import proofs.«424366_j67353677136176_3_alg».proof.Proof.Gen.Kernel.Launch
import proofs.«424366_j67353677136176_3_alg».proof.Proof.Gen.Kernel.Skeleton
import proofs.«424366_j67353677136176_3_alg».proof.Proof.Gen.Kernel.Points
import proofs.«424366_j67353677136176_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds its block at every point, fetched there or not: where it is not
    fetched the block index has not moved, and the body left the block in place at the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

/-- The whole of a 512-row tile's buffer, and the whole of the key/value buffer. -/
abbrev rq : Rect S1x512x512 := Rect.unit (s := S1x512x512) ![0, 0, 0] S1x512x512.size inb_S1x512x512_S1x512x512_0_0_0
abbrev rkv : Rect S1x2048x512 := Rect.unit (s := S1x2048x512) ![0, 0, 0] S1x2048x512.size inb_S1x2048x512_S1x2048x512_0_0_0

/-- The output window's staging buffer after the body, from the two input blocks: its one store, of the body's
    arithmetic on the two loads. -/
def out0_2 (x0 : Vec F S1x512x512 .f32) (x1 : Vec F S1x2048x512 .f32) : Vec F S1x512x512 .f32 :=
  View.canon [⟨rq, k0_pay1 (View.ld x0 rq) (View.ld x1 rkv)⟩]

/-- The one store covers the buffer. -/
theorem cover0_2 (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel (c : Dev nD) (E : Set ℕ) (i : grid0.Coords) (arg2 : Memref sig .tc .vmem S1x512x512 .f32) (harg2 : arg2.IsWhole)
    (arg3 : Memref sig .tc .vmem S1x2048x512 .f32) (harg3 : arg3.IsWhole) (arg4 : Memref sig .tc .vmem S1x512x512 .f32) (harg4 : arg4.IsWhole)
    (x0 : Vec F S1x512x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point
    `t` each input's buffer at its block and the output's at `out0_2` of the input blocks; between points the core's
    scoped buffers that are no staging buffer, untouched; nothing owed; the argument's buffer held in two halves, one
    by each input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The argument's buffer dealt between the two input windows -/

/-- The distinct buffers behind the three windows' arrays are two: the argument's and the result's. -/
theorem bigSep_arrs {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The shares the windows hold their arrays at: the two halves of the argument's, and the result's whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl

/-- At entry: the two distinct buffers behind the three windows' arrays, each whole at the full share, are the
    proof data's arrays — the argument's split into its two halves, one per input window, the result's outright. -/
theorem hsplit (c : Dev nD) :
    (Pipeline.arrBufs spec0 c (V m c) : sProp 𝕄) ⊢ (dats m 0 c).arrays ((dats m 0 c).arrAt · 0) := by
  rw [Cert.Lib.SharedFrame.arrays_eq_shares cfgs (dats m) 0 c arr_whole0]
  unfold Pipeline.arrBufs
  rw [bigSep_arrs, bigSep_W0, share0, share1, share2]
  iintro ⟨HA, HO⟩
  ihave HA' := (Cert.Lib.SharedFrame.pointsTo_halves (V m c main_arg0)) $$ HA
  icases HA' with ⟨HL, HR⟩
  isplitl [HL]; · iexact HL
  isplitl [HR]; · iexact HR
  iexact HO

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each window's array at what the library computes from the proof data. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Hand

end
-- ==== Proof.FrameIdeal.lean ====
/-
  The frame of the attention kernel's one pallas_call, by hand: its pipeline hands the ONE argument array to two
  input windows (the query tile of 512 rows, and all 2048 rows as keys and values), so the argument's buffer is
  split between the two windows along its share, each window holding one half; the output window holds the result
  array outright.

  What the body finds and leaves, at every grid point (b, qi) of the 16 × 4 grid:
  * window 0's staging buffer holds rows qi·512 … qi·512+511 of batch b, window 1's all rows of batch b — fetched
    at that point or kept from the point before (the key/value block moves only when b does) — and the body leaves
    both as it found them;
  * window 2's staging buffer is read once (the value is not used) and then overwritten whole by the body's one
    store, whose value is the body's arithmetic on the two loaded blocks.
  The run then gives, for every window, its array after the last point as the library computes it from these data:
  the argument unchanged, the result overwritten block by block.
-/
import proofs.«424366_j67353677136176_3_alg».proof.Proof.Gen.KernelIdeal.Launch
import proofs.«424366_j67353677136176_3_alg».proof.Proof.Gen.KernelIdeal.Skeleton
import proofs.«424366_j67353677136176_3_alg».proof.Proof.Gen.KernelIdeal.Points
import proofs.«424366_j67353677136176_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds its block at every point, fetched there or not: where it is not
    fetched the block index has not moved, and the body left the block in place at the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

/-- The whole of a 512-row tile's buffer, and the whole of the key/value buffer. -/
abbrev rq : Rect S1x512x512 := Rect.unit (s := S1x512x512) ![0, 0, 0] S1x512x512.size inb_S1x512x512_S1x512x512_0_0_0
abbrev rkv : Rect S1x2048x512 := Rect.unit (s := S1x2048x512) ![0, 0, 0] S1x2048x512.size inb_S1x2048x512_S1x2048x512_0_0_0

/-- The output window's staging buffer after the body, from the two input blocks: its one store, of the body's
    arithmetic on the two loads. -/
def out0_2 (x0 : Vec F S1x512x512 .f32) (x1 : Vec F S1x2048x512 .f32) : Vec F S1x512x512 .f32 :=
  View.canon [⟨rq, k0_pay1 (View.ld x0 rq) (View.ld x1 rkv)⟩]

/-- The one store covers the buffer. -/
theorem cover0_2 (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel (c : Dev nD) (E : Set ℕ) (i : grid0.Coords) (arg2 : Memref sig .tc .vmem S1x512x512 .f32) (harg2 : arg2.IsWhole)
    (arg3 : Memref sig .tc .vmem S1x2048x512 .f32) (harg3 : arg3.IsWhole) (arg4 : Memref sig .tc .vmem S1x512x512 .f32) (harg4 : arg4.IsWhole)
    (x0 : Vec F S1x512x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point
    `t` each input's buffer at its block and the output's at `out0_2` of the input blocks; between points the core's
    scoped buffers that are no staging buffer, untouched; nothing owed; the argument's buffer held in two halves, one
    by each input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The argument's buffer dealt between the two input windows -/

/-- The distinct buffers behind the three windows' arrays are two: the argument's and the result's. -/
theorem bigSep_arrs {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The shares the windows hold their arrays at: the two halves of the argument's, and the result's whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl

/-- At entry: the two distinct buffers behind the three windows' arrays, each whole at the full share, are the
    proof data's arrays — the argument's split into its two halves, one per input window, the result's outright. -/
theorem hsplit (c : Dev nD) :
    (Pipeline.arrBufs spec0 c (V m c) : sProp 𝕄) ⊢ (dats m 0 c).arrays ((dats m 0 c).arrAt · 0) := by
  rw [Cert.Lib.SharedFrame.arrays_eq_shares cfgs (dats m) 0 c arr_whole0]
  unfold Pipeline.arrBufs
  rw [bigSep_arrs, bigSep_W0, share0, share1, share2]
  iintro ⟨HA, HO⟩
  ihave HA' := (Cert.Lib.SharedFrame.pointsTo_halves (V m c main_arg0)) $$ HA
  icases HA' with ⟨HL, HR⟩
  isplitl [HL]; · iexact HL
  isplitl [HR]; · iexact HR
  iexact HO

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each window's array at what the library computes from the proof data. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ _ => rfl)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Hand

end
-- ==== Proof.AttnSpec.lean ====
/-
  The specification: unscaled self-attention of a batch of row sets with itself, as functions on the extended reals.

  For one batch `b` the rows `x[b, i, :]` (`i < 2048`, each of 512 entries) serve as queries, keys and values at
  once. For a query row `q` and the key/value rows `kv`:

    score i   = ∑ d, q d · kv i d                       (the inner product with row i)
    top       = the running maximum of the scores, started from the pattern of -∞
    weight i  = exp (score i - top)
    attnRow d = (∑ i, weight i · kv i d) / (∑ i, weight i)

  `outK` is this at query row `j` of batch `b`: the quotient is taken ONCE, after the weighted sum of the value
  rows. `outR` is the other arrangement of the same quantity: the scores are written with the two rows in the
  other order, the maximum is joined once more with -∞, the weights are normalised FIRST (each divided by their sum,
  the sum started from the pattern of 0) and the normalised weights then combine the value rows. The two agree
  wherever every entry of `x` is a real number; the law is proved in the module that imports this one.
-/
import Idealize.ShloMosaic.PureOps.Ideal
import Idealize.ShloMosaic.Lib.ValueIdx

noncomputable section

namespace Cert.Attn

open Idealize.ShloMosaic Idealize.ShloMosaic.ValueIdx

/-- The shape of the one argument and of the result: 16 batches of 2048 rows of 512 entries. -/
abbrev SX : Shape := ⟨3, ![16, 2048, 512]⟩

/-- The inner product of a query row with key row `i`. -/
def score (q : Fin 512 → EReal) (kv : Fin 2048 → Fin 512 → EReal) (i : Fin 2048) : EReal :=
  ∑ d : Fin 512, q d * kv i d

/-- The maximum of a query row's scores, folded from the pattern of -∞. -/
def top (q : Fin 512 → EReal) (kv : Fin 2048 → Fin 512 → EReal) : EReal :=
  (Finset.univ : Finset (Fin 2048)).fold max (Ideal.ofBits .f32 0xFF800000#32) (score q kv)

/-- The unnormalised weight of key row `i`. -/
def weight (q : Fin 512 → EReal) (kv : Fin 2048 → Fin 512 → EReal) (i : Fin 2048) : EReal :=
  Ideal.exp (score q kv i - top q kv)

/-- One query row's output entry `d`: the weighted sum of the value rows' entries, divided once by the weights' sum. -/
def attnRow (q : Fin 512 → EReal) (kv : Fin 2048 → Fin 512 → EReal) (d : Fin 512) : EReal :=
  Ideal.div (∑ i : Fin 2048, weight q kv i * kv i d) (∑ i : Fin 2048, weight q kv i)

/-- Row `j` of batch `b` as a query row. -/
def rowOf (x : SX.Idx → EReal) (b : Fin 16) (j : Fin 2048) : Fin 512 → EReal := fun d => x (ix3 b j d)

/-- The rows of batch `b` as key/value rows. -/
def rowsOf (x : SX.Idx → EReal) (b : Fin 16) : Fin 2048 → Fin 512 → EReal := fun i d => x (ix3 b i d)

/-- The attention output at `(b, j, d)`, the quotient taken after the weighted sum. -/
def outK (x : SX.Idx → EReal) (b : Fin 16) (j : Fin 2048) (d : Fin 512) : EReal :=
  attnRow (rowOf x b j) (rowsOf x b) d

/-- The whole array of `outK`. -/
def arrK (x : SX.Idx → EReal) : SX.Idx → EReal := fun y => outK x (y 0) (y 1) (y 2)

/-- The score of rows `i` and `j` of batch `b`, row `i` written first. -/
def scoreT (x : SX.Idx → EReal) (b : Fin 16) (i j : Fin 2048) : EReal :=
  ∑ k : Fin 512, x (ix3 b i k) * x (ix3 b j k)

/-- Column `j`'s maximum over `i`, folded from -∞ and joined with -∞ once more. -/
def topT (x : SX.Idx → EReal) (b : Fin 16) (j : Fin 2048) : EReal :=
  max (Ideal.ofBits .f32 0xFF800000#32)
    ((Finset.univ : Finset (Fin 2048)).fold max (Ideal.ofBits .f32 0xFF800000#32) (fun i => scoreT x b i j))

/-- The unnormalised weight at `(i, j)`. -/
def weightT (x : SX.Idx → EReal) (b : Fin 16) (i j : Fin 2048) : EReal :=
  Ideal.exp (scoreT x b i j - topT x b j)

/-- Column `j`'s sum of weights over `i`, started from the pattern of 0. -/
def denomT (x : SX.Idx → EReal) (b : Fin 16) (j : Fin 2048) : EReal :=
  Ideal.ofBits .f32 0x00000000#32 + ∑ i : Fin 2048, weightT x b i j

/-- The attention output at `(b, j, d)`, the weights normalised before they combine the value rows. -/
def outR (x : SX.Idx → EReal) (b : Fin 16) (j : Fin 2048) (d : Fin 512) : EReal :=
  ∑ i : Fin 2048, Ideal.div (weightT x b i j) (denomT x b j) * x (ix3 b i d)

/-- The whole array of `outR`. -/
def arrR (x : SX.Idx → EReal) : SX.Idx → EReal := fun y => outR x (y 0) (y 1) (y 2)

end Cert.Attn

end
-- ==== Proof.KernelPayload.lean ====
/-
  The kernel's body arithmetic read at an index, at the ideal values: the block the body stores is, entry by entry,
  the specification's attention row of the two blocks it loaded.

  The body takes the query block [1, 512, 512] and the key/value block [1, 2048, 512] as matrices, forms the score
  matrix (the inner products of query rows with key rows), takes each row's maximum from the pattern of -∞, subtracts
  it, exponentiates, sums each row from the pattern of 0, multiplies the exponentials into the value rows and divides
  each row of the product by its row sum. Each non-pointwise step is read at explicit coordinates by one small lemma:
  the two keepdims column forms, the row maximum and the row sum, and the two matrix products as sums over the
  contraction coordinate. The stages then chain into `attnRow`.
-/
import proofs.«424366_j67353677136176_3_alg».proof.Proof.Gen.KernelIdeal.Skeleton
import proofs.«424366_j67353677136176_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The keepdims column forms -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions -/

/-- The row maximum: the fold of `max` from the accumulator's value over the row's entries. -/
theorem rowMax_apply (src : FVec Ideal S512x2048 .f32) (h : S512x2048.Reduces [1] S512) (hφ : FKind.Formats .f32)
    (hacc : (0xFF800000#32 : BitVec 32) = 0xFF800000#32) (r : Fin 512) :
    multiReduction (F := Ideal) .maximumf [1] S512 src 0xFF800000#32 h hφ hacc (ix1 r)
      = (Finset.univ : Finset (Fin 2048)).fold max (Ideal.ofBits .f32 0xFF800000#32) (fun i => src (ix2 r i)) := by
  refine (Ideal.multiReduction_maximumf_single src 0xFF800000#32 h hφ hacc (ix1 r)).trans ?_
  refine congrArg (fun f => (Finset.univ : Finset (Fin 2048)).fold max (Ideal.ofBits .f32 0xFF800000#32) f) ?_
  funext k
  exact congrArg src (funext fun a => Fin.ext (by match a with | ⟨0, _⟩ => rfl | ⟨1, _⟩ => rfl))

/-- The row sum. -/
theorem rowSum_apply (src : FVec Ideal S512x2048 .f32) (h : S512x2048.Reduces [1] S512) (hφ : FKind.Formats .f32)
    (hacc : (0x00000000#32 : BitVec 32) = 0x00000000#32) (r : Fin 512) :
    multiReduction (F := Ideal) .add [1] S512 src 0x00000000#32 h hφ hacc (ix1 r) = ∑ i : Fin 2048, src (ix2 r i) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-! ## The two matrix products -/

/-- The score product's left operand index: row `p` of the output on axis 0 … -/
theorem lhs_scores_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- … and the contraction coordinate on axis 1. -/
theorem lhs_scores_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- The score product's right operand index: column `i` of the output on axis 0 … -/
theorem rhs_scores_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- … and the contraction coordinate on axis 1. -/
theorem rhs_scores_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The score product into zeros, at `(p, i)`: the inner product of row `p` of the left operand with row `i` of the
right one. -/
theorem scores_apply (lhs : FVec Ideal S512x512 .bf16) (rhs : FVec Ideal S2048x512 .bf16) (p : Fin 512) (i : Fin 2048) :
    matmul dot_S512x512_S2048x512_S512x2048_1_1_0_0_n_n none lhs rhs (constant (F := Ideal) S512x2048 .f32 0x00000000#32) (ix2 p i)
      = ∑ k : Fin 512, lhs (ix2 p k) * rhs (ix2 i k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p i) ((contrEquiv1 dot_S512x512_S2048x512_S512x2048_1_1_0_0_n_n 512 rfl rfl).symm k) = ix2 p k := funext fun a => Fin.ext (by
    match a with
    | ⟨0, _⟩ => exact lhs_scores_0 _ _
    | ⟨1, _⟩ => exact (lhs_scores_1 _ _).trans hk)
  have er : dot_S512x512_S2048x512_S512x2048_1_1_0_0_n_n.rhsIdx (ix2 p i) ((contrEquiv1 dot_S512x512_S2048x512_S512x2048_1_1_0_0_n_n 512 rfl rfl).symm k) = ix2 i k := funext fun a => Fin.ext (by
    match a with
    | ⟨0, _⟩ => exact rhs_scores_0 _ _
    | ⟨1, _⟩ => exact (rhs_scores_1 _ _).trans hk)
  rw [el, er]

/-- The value product's left operand index: row `p` of the output on axis 0 … -/
theorem lhs_values_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- … and the contraction coordinate on axis 1. -/
theorem lhs_values_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- The value product's right operand index: the contraction coordinate on axis 0 … -/
theorem rhs_values_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- … and column `q` of the output on axis 1. -/
theorem rhs_values_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The value product into zeros, at `(p, d)`: the weights of row `p` against column `d` of the value rows. -/
theorem values_apply (lhs : FVec Ideal S512x2048 .bf16) (rhs : FVec Ideal S2048x512 .bf16) (p : Fin 512) (d : Fin 512) :
    matmul dot_S512x2048_S2048x512_S512x512_1_0_0_1_n_n none lhs rhs (constant (F := Ideal) S512x512 .f32 0x00000000#32) (ix2 p d)
      = ∑ k : Fin 2048, lhs (ix2 p k) * rhs (ix2 k d) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p d) ((contrEquiv1 dot_S512x2048_S2048x512_S512x512_1_0_0_1_n_n 2048 rfl rfl).symm k) = ix2 p k := funext fun a => Fin.ext (by
    match a with
    | ⟨0, _⟩ => exact lhs_values_0 _ _
    | ⟨1, _⟩ => exact (lhs_values_1 _ _).trans hk)
  have er : dot_S512x2048_S2048x512_S512x512_1_0_0_1_n_n.rhsIdx (ix2 p d) ((contrEquiv1 dot_S512x2048_S2048x512_S512x512_1_0_0_1_n_n 2048 rfl rfl).symm k) = ix2 k d := funext fun a => Fin.ext (by
    match a with
    | ⟨0, _⟩ => exact (rhs_values_0 _ _).trans hk
    | ⟨1, _⟩ => exact rhs_values_1 _ _)
  rw [el, er]

/-! ## The stages -/

/-- The score matrix of the two blocks, at `(p, i)`: the specification's score of query row `p` with key row `i`. -/
theorem scores_of_blocks (x0 : FVec Ideal S1x512x512 .f32) (x1 : FVec Ideal S1x2048x512 .f32)
    (hc0 : S1x512x512.ShapeCasts S512x512) (hc1 : S1x2048x512.ShapeCasts S2048x512)
    (hb : FTy.bits .bf16 < FTy.bits .f32) (p : Fin 512) (i : Fin 2048) :
    matmul dot_S512x512_S2048x512_S512x2048_1_1_0_0_n_n none (truncf .bf16 (shapeCast S512x512 x0 hc0) hb)
        (truncf .bf16 (shapeCast S2048x512 x1 hc1) hb) (constant (F := Ideal) S512x2048 .f32 0x00000000#32) (ix2 p i)
      = Cert.Attn.score (fun d => x0 (ix3 (0 : Fin 1) p d)) (fun i d => x1 (ix3 (0 : Fin 1) i d)) i := by
  refine (scores_apply _ _ p i).trans ?_
  unfold Cert.Attn.score
  refine Finset.sum_congr rfl fun k _ => ?_
  refine congrArg₂ (· * ·) ?_ ?_
  · exact (truncf_apply (ψ := .bf16) (shapeCast S512x512 x0 hc0) hb (ix2 p k)).trans (shapeCast_1ab_ab_apply x0 hc0 p k)
  · exact (truncf_apply (ψ := .bf16) (shapeCast S2048x512 x1 hc1) hb (ix2 i k)).trans (shapeCast_1ab_ab_apply x1 hc1 i k)

/-- The exponentials of a score matrix less its row maxima, at `(p, k)`: the specification's weight, once row `p` of
the matrix is the specification's scores. -/
theorem weight_of_scores (V : FVec Ideal S512x2048 .f32) (Q : Fin 512 → EReal) (KV : Fin 2048 → Fin 512 → EReal) (p : Fin 512)
    (hV : ∀ i : Fin 2048, V (ix2 p i) = Cert.Attn.score Q KV i)
    (hr : S512x2048.Reduces [1] S512) (hφ : FKind.Formats .f32) (hacc : (0xFF800000#32 : BitVec 32) = 0xFF800000#32)
    (hc : S512.ShapeCasts S512x1) (hb : S512x1.Broadcasts S512x2048) (k : Fin 2048) :
    exp (subf V (broadcastTo S512x2048 (shapeCast S512x1
        (multiReduction (F := Ideal) .maximumf [1] S512 V 0xFF800000#32 hr hφ hacc) hc) hb)) (ix2 p k)
      = Cert.Attn.weight Q KV k := by
  show Ideal.exp (V (ix2 p k) - broadcastTo S512x2048 (shapeCast S512x1
        (multiReduction (F := Ideal) .maximumf [1] S512 V 0xFF800000#32 hr hφ hacc) hc) hb (ix2 p k))
      = Ideal.exp (Cert.Attn.score Q KV k - Cert.Attn.top Q KV)
  refine congrArg Ideal.exp (congrArg₂ (· - ·) (hV k) ?_)
  refine (broadcastTo_a1_ab_apply _ hb p k).trans ?_
  refine (shapeCast_a_a1_apply _ hc p (0 : Fin 1)).trans ?_
  refine (rowMax_apply V hr hφ hacc p).trans ?_
  unfold Cert.Attn.top
  exact congrArg (fun f => (Finset.univ : Finset (Fin 2048)).fold max (Ideal.ofBits .f32 0xFF800000#32) f) (funext hV)

/-! ## The payload at an index -/

/-- The stored block at `(0, p, q)` is the specification's attention row of query row `p` of the first block against the
rows of the second, at entry `q`: the weighted sum of the value rows' entries divided once by the weights' sum. -/
theorem pay_apply (x0 : Vec Ideal S1x512x512 .f32) (x1 : Vec Ideal S1x2048x512 .f32) (p : Fin 512) (q : Fin 512) :
    k0_pay1 (F := Ideal) x0 x1 (ix3 (0 : Fin 1) p q)
      = Cert.Attn.attnRow (fun d => x0 (ix3 (0 : Fin 1) p d)) (fun i d => x1 (ix3 (0 : Fin 1) i d)) q := by
  unfold k0_pay1
  refine (shapeCast_ab_1ab_apply _ shapeCasts_S512x512_S1x512x512 (0 : Fin 1) p q).trans ?_
  refine (divf_apply _ _ (ix2 p q)).trans ?_
  unfold Cert.Attn.attnRow
  refine congrArg₂ Ideal.div ?_ ?_
  · refine (values_apply _ _ p q).trans ?_
    refine Finset.sum_congr rfl fun k _ => ?_
    refine congrArg₂ (· * ·) ?_ ?_
    · refine (truncf_apply (ψ := .bf16) _ bitsLt_bf16_f32 (ix2 p k)).trans ?_
      exact weight_of_scores _ _ _ p (fun i => scores_of_blocks x0 x1 _ _ _ p i) _ _ _ _ _ k
    · exact (truncf_apply (ψ := .bf16) (shapeCast S2048x512 x1 shapeCasts_S1x2048x512_S2048x512) bitsLt_bf16_f32 (ix2 k q)).trans
        (shapeCast_1ab_ab_apply x1 shapeCasts_S1x2048x512_S2048x512 k q)
  · refine (broadcastTo_a1_ab_apply _ broadcasts_S512x1_S512x512 p q).trans ?_
    refine (shapeCast_a_a1_apply _ shapeCasts_S512_S512x1 p (0 : Fin 1)).trans ?_
    refine (rowSum_apply _ _ _ _ p).trans ?_
    refine Finset.sum_congr rfl fun k _ => ?_
    exact weight_of_scores _ _ _ p (fun i => scores_of_blocks x0 x1 _ _ _ p i) _ _ _ _ _ k

end Cert.KernelIdeal.PayValue

end
-- ==== Proof.BlocksIdeal.lean ====
/-
  From blocks to the array: the idealized kernel's result array after the run is the specification's `arrK` of the
  argument array.

  At grid point t = (b, qi) the output window writes back a tile of 512 rows, rows qi·512 … qi·512+511 of batch b
  of the result. What the body left there is its arithmetic on the two input blocks; the query block is rows
  qi·512 … qi·512+511 of batch b of the argument and the key/value block is all rows of batch b, so entry (p, q) of
  the tile is the attention output at (b, qi·512 + p, q): block t of `arrK`. The 64 tiles cover the result (row j of
  batch b lies in the tile of point (b, j / 512)), so the whole array is `arrK` of the argument.
-/
import proofs.«424366_j67353677136176_3_alg».proof.Proof.FrameIdeal
import proofs.«424366_j67353677136176_3_alg».proof.Proof.KernelPayload
import proofs.«424366_j67353677136176_3_alg».proof.Proof.AttnSpec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 64 grid points: the query window moves with the output window, the
    key/value window with its batch coordinate only, and the output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every tile of the result is some point's. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- WHAT POINT `t` WRITES BACK is block `t` of `arrK` of the argument array as the region finds it. -/
theorem flushed_eq (c : Dev nD) (t : Fin cfg0.N) :
    (dats m 0 c).flushed 2 t = ((cfg0.win 2).blk t).view.read (Elt Ideal) (Cert.Attn.arrK (V m c main_arg0)) := by
  show (cfg0.win 2).cut (grid0.coords t) ((dats m 0 c).after 2 t) = _
  rw [after0_2]
  unfold out0_2
  rw [View.canon_unit_zero hz]
  simp only [View.ld_unit_zero (S := S1x512x512) hz, View.ld_unit_zero (S := S1x2048x512) hz]
  obtain ⟨e00, e01, e02, e10, e11, e12, b0, b1, e22⟩ := idx_facts t
  funext j
  obtain ⟨z, p, q, rfl⟩ : ∃ (z : Fin 1) (p : Fin 512) (q : Fin 512), j = ix3 z p q := ⟨j 0, j 1, j 2, eq_ix3 j⟩
  obtain rfl : z = 0 := Subsingleton.elim _ _
  have hb : win0_2.index t (0 : Fin 3) < 16 := by omega
  have hJ : win0_2.index t (1 : Fin 3) * 512 + p.val < 2048 := by have := p.isLt; omega
  -- the tile's entry (p, q) sits at (b, qi·512 + p, q) of the result
  have h2 : ((cfg0.win 2).blk t).view.emb (ix3 (0 : Fin 1) p q)
      = ix3 (⟨win0_2.index t (0 : Fin 3), hb⟩ : Fin 16) (⟨win0_2.index t (1 : Fin 3) * 512 + p.val, hJ⟩ : Fin 2048) q := by
    funext a; apply Fin.ext
    match a with
    | ⟨0, _⟩ => show win0_2.index t (0 : Fin 3) * 1 + 1 * 0 = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 512 + 1 * q.val = q.val; omega
  -- the query block's row p is row qi·512 + p of batch b of the argument
  have h0 : ∀ d : Fin 512, iblk m c 0 t (ix3 (0 : Fin 1) p d)
      = Cert.Attn.rowOf (V m c main_arg0) (⟨win0_2.index t (0 : Fin 3), hb⟩ : Fin 16) (⟨win0_2.index t (1 : Fin 3) * 512 + p.val, hJ⟩ : Fin 2048) d := fun d => by
    show V m c main_arg0 (((cfg0.win 0).blk t).view.emb (ix3 (0 : Fin 1) p d)) = V m c main_arg0 (ix3 _ _ d)
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * p.val = win0_2.index t (1 : Fin 3) * 512 + p.val; omega
    | ⟨2, _⟩ => show win0_0.index t (2 : Fin 3) * 512 + 1 * d.val = d.val; omega
  -- the key/value block's row i is row i of batch b of the argument
  have h1 : ∀ (i : Fin 2048) (d : Fin 512), iblk m c 1 t (ix3 (0 : Fin 1) i d)
      = Cert.Attn.rowsOf (V m c main_arg0) (⟨win0_2.index t (0 : Fin 3), hb⟩ : Fin 16) i d := fun i d => by
    show V m c main_arg0 (((cfg0.win 1).blk t).view.emb (ix3 (0 : Fin 1) i d)) = V m c main_arg0 (ix3 _ i d)
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 2048 + 1 * i.val = i.val; omega
    | ⟨2, _⟩ => show win0_1.index t (2 : Fin 3) * 512 + 1 * d.val = d.val; omega
  show k0_pay1 (F := Ideal) (iblk m c 0 t) (iblk m c 1 t) (ix3 (0 : Fin 1) p q)
    = Cert.Attn.arrK (V m c main_arg0) (((cfg0.win 2).blk t).view.emb (ix3 (0 : Fin 1) p q))
  rw [h2]
  refine (Cert.KernelIdeal.PayValue.pay_apply (iblk m c 0 t) (iblk m c 1 t) p q).trans ?_
  show Cert.Attn.attnRow _ _ q = Cert.Attn.attnRow (Cert.Attn.rowOf (V m c main_arg0) _ _) (Cert.Attn.rowsOf (V m c main_arg0) _) q
  rw [show (fun d => iblk m c 0 t (ix3 (0 : Fin 1) p d)) = Cert.Attn.rowOf (V m c main_arg0) _ _ from funext h0,
    show (fun i d => iblk m c 1 t (ix3 (0 : Fin 1) i d)) = Cert.Attn.rowsOf (V m c main_arg0) _ from funext fun i => funext (h1 i)]

/-- An index of the result is in point `t`'s tile iff each coordinate is in the tile's range on its axis. -/
theorem mem_blk (t : Fin cfg0.N) (i : S16x2048x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the result is in the tile of the point (its batch, its row / 512). -/
theorem cover (i : S16x2048x512.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE RESULT ARRAY after the run: `arrK` of the argument array. -/
theorem final (c : Dev nD) : (dats m 0 c).arrAt 2 cfg0.N = Cert.Attn.arrK (m ((c : Thread nD τ).loc main_arg0)) :=
  (dats m 0 c).arrAt_eq_of_cover 2 (Cert.Attn.arrK (V m c main_arg0)) (fun t _ => flushed_eq m c t) cover

/-- The run, read: the result at `arrK` of the argument, the argument unchanged. -/
theorem run : θ_run defs (onTc (τ := τ) (main (F := Ideal))) ⟨m, fun _ => 0, ρ⟩ fun r => ∀ c : Dev nD,
      r.2.mem ((c : Thread nD τ).loc main_v0) = Cert.Attn.arrK (m ((c : Thread nD τ).loc main_arg0))
      ∧ r.2.mem ((c : Thread nD τ).loc main_arg0) = m ((c : Thread nD τ).loc main_arg0) :=
  (θ_run defs _ _).mono (fun r h c => ⟨((h c).1 2).trans (final m c),
      ((h c).1 0).trans (((dats m 0 c).arrAt_in 0 rfl _).trans (A_eq m c 0))⟩)
    (run_main m ρ)

end Cert.KernelIdeal.HandValue

end
-- ==== Proof.RefValue.lean ====
/-
  The reference program's result, read index by index, is the specification's `arrR`.

  Each stage of the reference is read at an index of literal coordinates:
    the first contraction at (b, i, j) is the score of rows i and j of batch b, row i first;
    the maximum-reduce over the middle axis at (b, j) is the fold of `max` over i of those scores from the pattern of -∞;
    the broadcasts carry the value at (b, j) to every (b, i, j);
    the sum over the middle axis at (b, j) is the pattern of 0 plus the sum over i of the weights;
    the last contraction at (b, j, d) is the sum over i of the normalised weight at (i, j) times x[b, i, d].
-/
import proofs.«424366_j67353677136176_3_alg».proof.Proof.Gen.ReferenceIdeal.Read
import proofs.«424366_j67353677136176_3_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Attn

/-- The argument's type: one ideal value per index of the 16 x 2048 x 512 array. -/
abbrev X : Type := (⟨S16x2048x512, .f32⟩ : BufTy).Contents (Elt Ideal)

/-- Dropping the middle axis of a 16 x 2048 x 2048 array leaves a 16 x 2048 one. -/
theorem red : S16x2048x2048.Reduces [1] S16x2048 := by decide

/-- The first contraction at (b, i, j): the inner product of rows i and j of batch b. -/
theorem v0_at (x0 : X) (b : Fin 16) (i j : Fin 2048) :
    val_main_v0 (F := Ideal) x0 (ix3 b i j) = scoreT x0 b i j := by
  rw [val_main_v0_apply]
  unfold scoreT
  refine Finset.sum_congr rfl fun k _ => ?_
  have el : lidx_main_v0 (ix3 b i j) k = ix3 b i k :=
    funext fun a => Fin.ext (by match a with | ⟨0, _⟩ => rfl | ⟨1, _⟩ => rfl | ⟨2, _⟩ => rfl)
  have er : ridx_main_v0 (ix3 b i j) k = ix3 b j k :=
    funext fun a => Fin.ext (by match a with | ⟨0, _⟩ => rfl | ⟨1, _⟩ => rfl | ⟨2, _⟩ => rfl)
  rw [el, er]

/-- The maximum-reduce at (b, j): the fold of `max` over i of the scores, from the pattern of -∞. -/
theorem v1_at (x0 : X) (b : Fin 16) (j : Fin 2048) :
    val_main_v1 (F := Ideal) x0 (ix2 b j)
      = (Finset.univ : Finset (Fin 2048)).fold max (Ideal.ofBits .f32 0xFF800000#32) (fun i => scoreT x0 b i j) := by
  unfold val_main_v1
  rw [Host.reduce_eq_fold_single FloatOps.maximumf _ _ reducesTo_S16x2048x2048_S16x2048_d1 red h_S_]
  have hp : ∀ i : Fin 2048, (val_main_v0 (F := Ideal) x0 ∘ red.lift (ix2 b j)) i = scoreT x0 b i j := fun i => by
    have e : red.lift (ix2 b j) i = ix3 b i j :=
      funext fun a => Fin.ext (by match a with | ⟨0, _⟩ => rfl | ⟨1, _⟩ => rfl | ⟨2, _⟩ => rfl)
    show val_main_v0 (F := Ideal) x0 (red.lift (ix2 b j) i) = _
    rw [e, v0_at]
  have hf : (val_main_v0 (F := Ideal) x0 ∘ red.lift (ix2 b j)) = fun i : Fin 2048 => scoreT x0 b i j := funext hp
  rw [hf]
  rfl

/-- The joined maximum at (b, j) is the specification's `topT`. -/
theorem v3_at (x0 : X) (b : Fin 16) (j : Fin 2048) :
    val_main_v3 (F := Ideal) x0 (ix2 b j) = topT x0 b j := by
  rw [val_main_v3_apply, val_main_v2_apply, val_main_cst_0_apply, v1_at]
  rfl

/-- The broadcast maximum at (b, i, j) is the maximum at (b, j). -/
theorem v5_at (x0 : X) (b : Fin 16) (i j : Fin 2048) :
    val_main_v5 (F := Ideal) x0 (ix3 b i j) = topT x0 b j := by
  rw [val_main_v5_apply, val_main_v4_apply]
  have e : idx_main_v4 (idx_main_v5 (ix3 b i j)) = ix2 b j :=
    funext fun a => Fin.ext (by match a with | ⟨0, _⟩ => rfl | ⟨1, _⟩ => rfl)
  rw [e, v3_at]

/-- The exponential stage at (b, i, j) is the unnormalised weight. -/
theorem v7_at (x0 : X) (b : Fin 16) (i j : Fin 2048) :
    val_main_v7 (F := Ideal) x0 (ix3 b i j) = weightT x0 b i j := by
  rw [val_main_v7_apply, val_main_v6_apply, v0_at, v5_at]
  rfl

/-- The sum stage at (b, j) is the weights' sum, started from the pattern of 0. -/
theorem v8_at (x0 : X) (b : Fin 16) (j : Fin 2048) :
    val_main_v8 (F := Ideal) x0 (ix2 b j) = denomT x0 b j := by
  rw [val_main_v8_apply, val_main_cst_1_apply]
  unfold denomT
  refine congrArg₂ (· + ·) rfl (Finset.sum_congr rfl fun k _ => ?_)
  have e : idx_main_v8 (ix2 b j) k = ix3 b k j :=
    funext fun a => Fin.ext (by match a with | ⟨0, _⟩ => rfl | ⟨1, _⟩ => rfl | ⟨2, _⟩ => rfl)
  rw [e, v7_at]

/-- The broadcast sum at (b, i, j) is the sum at (b, j). -/
theorem v10_at (x0 : X) (b : Fin 16) (i j : Fin 2048) :
    val_main_v10 (F := Ideal) x0 (ix3 b i j) = denomT x0 b j := by
  rw [val_main_v10_apply, val_main_v9_apply]
  have e : idx_main_v9 (idx_main_v10 (ix3 b i j)) = ix2 b j :=
    funext fun a => Fin.ext (by match a with | ⟨0, _⟩ => rfl | ⟨1, _⟩ => rfl)
  rw [e, v8_at]

/-- The quotient stage at (b, i, j) is the normalised weight. -/
theorem v11_at (x0 : X) (b : Fin 16) (i j : Fin 2048) :
    val_main_v11 (F := Ideal) x0 (ix3 b i j) = Ideal.div (weightT x0 b i j) (denomT x0 b j) := by
  rw [val_main_v11_apply, v7_at, v10_at]
  rfl

/-- The reference's result is the specification's `arrR`. -/
theorem ref_eq (x0 : (⟨Cert.ReferenceIdeal.S16x2048x512, .f32⟩ : BufTy).Contents (Elt Ideal)) :
    Cert.ReferenceIdeal.Read.val_main_v12 (F := Ideal) x0 = Cert.Attn.arrR x0 := by
  funext i
  obtain ⟨b, j, d, rfl⟩ : ∃ (b : Fin 16) (j : Fin 2048) (d : Fin 512), i = ValueIdx.ix3 b j d :=
    ⟨i 0, i 1, i 2, ValueIdx.eq_ix3 i⟩
  rw [val_main_v12_apply]
  show _ = outR x0 b j d
  unfold outR
  refine Finset.sum_congr rfl fun k _ => ?_
  have el : lidx_main_v12 (ix3 b j d) k = ix3 b k j :=
    funext fun a => Fin.ext (by match a with | ⟨0, _⟩ => rfl | ⟨1, _⟩ => rfl | ⟨2, _⟩ => rfl)
  have er : ridx_main_v12 (ix3 b j d) k = ix3 b k d :=
    funext fun a => Fin.ext (by match a with | ⟨0, _⟩ => rfl | ⟨1, _⟩ => rfl | ⟨2, _⟩ => rfl)
  rw [el, er, v11_at]

end Cert.ReferenceIdeal.RefValue

end
-- ==== Proof.AttnLaw.lean ====
/-
  The law between the two arrangements of unscaled self-attention.

  Without any hypothesis the second arrangement's pieces are the first's: the product under the score's sum
  commutes, the pattern of -∞ denotes ⊥ (so joining with it once more changes nothing), and the pattern of 0
  denotes 0 (so the sum started from it is the plain sum). What is left is the exchange of the quotient with
  the weighted sum,

    (∑ i, w i · v i) / D = ∑ i, (w i / D) · v i,      D = ∑ i, w i,

  which is distributivity and so fails on the extended reals in general. Over real data every score is real,
  the maximum of the nonempty family of scores is real, each weight is the exponential of a real (so positive),
  and D is a positive real; both sides are then coercions of real numbers and the exchange is the real one.
-/
import proofs.«424366_j67353677136176_3_alg».proof.Proof.AttnSpec
import Idealize.ShloMosaic.PureOps.Ideal.Laws

noncomputable section

namespace Cert.Attn

open Idealize.ShloMosaic Idealize.ShloMosaic.ValueIdx

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of -∞ denotes ⊥. -/
theorem ofBits_negInf : Ideal.ofBits .f32 0xFF800000#32 = (⊥ : EReal) := by
  simp [Ideal.ofBits, Ideal.ieee]

/-- The maximum, folded from ⊥, of a nonempty finite family of reals is a real. -/
theorem fold_max_real {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact (EReal.coe_strictMono.monotone.map_max).symm⟩

/-! ### The second arrangement in the first's terms (no hypothesis on the data) -/

theorem scoreT_eq (x : SX.Idx → EReal) (b : Fin 16) (i j : Fin 2048) :
    scoreT x b i j = score (rowOf x b j) (rowsOf x b) i := by
  unfold scoreT score rowOf rowsOf
  exact Finset.sum_congr rfl fun k _ => mul_comm _ _

theorem topT_eq (x : SX.Idx → EReal) (b : Fin 16) (j : Fin 2048) :
    topT x b j = top (rowOf x b j) (rowsOf x b) := by
  unfold topT top
  rw [ofBits_negInf, max_bot_left]
  exact congrArg (fun f => Finset.fold max (⊥ : EReal) f Finset.univ) (funext fun i => scoreT_eq x b i j)

theorem weightT_eq (x : SX.Idx → EReal) (b : Fin 16) (i j : Fin 2048) :
    weightT x b i j = weight (rowOf x b j) (rowsOf x b) i := by
  unfold weightT weight
  rw [scoreT_eq, topT_eq]

theorem denomT_eq (x : SX.Idx → EReal) (b : Fin 16) (j : Fin 2048) :
    denomT x b j = ∑ i : Fin 2048, weight (rowOf x b j) (rowsOf x b) i := by
  unfold denomT
  rw [Ideal.ofBits_zero_f32, zero_add]
  exact Finset.sum_congr rfl fun i _ => weightT_eq x b i j

theorem outR_eq (x : SX.Idx → EReal) (b : Fin 16) (j : Fin 2048) (d : Fin 512) :
    outR x b j d = ∑ i : Fin 2048,
      Ideal.div (weight (rowOf x b j) (rowsOf x b) i) (∑ i : Fin 2048, weight (rowOf x b j) (rowsOf x b) i)
        * rowsOf x b i d := by
  unfold outR
  refine Finset.sum_congr rfl fun i _ => ?_
  rw [weightT_eq, denomT_eq]
  rfl

/-! ### One query row over real data -/

/-- A score of real rows is the coercion of the real inner product. -/
theorem score_real (q : Fin 512 → ℝ) (kv : Fin 2048 → Fin 512 → ℝ) (i : Fin 2048) :
    score (fun d => (q d : EReal)) (fun i d => (kv i d : EReal)) i = ((∑ d : Fin 512, q d * kv i d : ℝ) : EReal) := by
  unfold score
  rw [coe_sum]
  exact Finset.sum_congr rfl fun d _ => (EReal.coe_mul _ _).symm

/-- The maximum of the scores of real rows is a real. -/
theorem top_real (q : Fin 512 → ℝ) (kv : Fin 2048 → Fin 512 → ℝ) :
    ∃ M : ℝ, top (fun d => (q d : EReal)) (fun i d => (kv i d : EReal)) = (M : EReal) := by
  obtain ⟨M, hM⟩ := fold_max_real (Finset.univ : Finset (Fin 2048)) ⟨0, Finset.mem_univ _⟩
    (fun i => ∑ d : Fin 512, q d * kv i d)
  refine ⟨M, ?_⟩
  unfold top
  rw [ofBits_negInf, ← hM]
  exact congrArg (fun f => Finset.fold max (⊥ : EReal) f Finset.univ) (funext fun i => score_real q kv i)

/-- Over real rows the quotient may be taken before the weighted sum. -/
theorem attnRow_real (q : Fin 512 → ℝ) (kv : Fin 2048 → Fin 512 → ℝ) (d : Fin 512) :
    attnRow (fun d => (q d : EReal)) (fun i d => (kv i d : EReal)) d
      = ∑ i : Fin 2048,
          Ideal.div (weight (fun d => (q d : EReal)) (fun i d => (kv i d : EReal)) i)
            (∑ i : Fin 2048, weight (fun d => (q d : EReal)) (fun i d => (kv i d : EReal)) i)
          * (kv i d : EReal) := by
  obtain ⟨M, hM⟩ := top_real q kv
  -- each weight is the exponential of a real
  have hw : ∀ i : Fin 2048, weight (fun d => (q d : EReal)) (fun i d => (kv i d : EReal)) i
      = ((Real.exp ((∑ d : Fin 512, q d * kv i d) - M) : ℝ) : EReal) := by
    intro i
    unfold weight
    rw [score_real, hM, ← EReal.coe_sub, Ideal.exp_coe]
  -- the denominator is a positive real
  have hpos : 0 < ∑ i : Fin 2048, Real.exp ((∑ d : Fin 512, q d * kv i d) - M) :=
    Finset.sum_pos (fun i _ => Real.exp_pos _) ⟨0, Finset.mem_univ _⟩
  unfold attnRow
  simp only [hw]
  rw [← coe_sum]
  simp only [Ideal.div_coe hpos.ne', ← EReal.coe_mul, ← coe_sum]
  rw [Finset.sum_mul]
  exact congrArg _ (Finset.sum_congr rfl fun i _ => mul_right_comm _ _ _)

/-! ### The law -/

theorem outK_eq_outR (x : SX.Idx → EReal) (hx : ∀ y, ∃ r : ℝ, x y = (r : EReal)) (b : Fin 16) (j : Fin 2048)
    (d : Fin 512) : outK x b j d = outR x b j d := by
  obtain ⟨xr, hxr⟩ : ∃ xr : SX.Idx → ℝ, x = fun y => (xr y : EReal) :=
    ⟨fun y => (hx y).choose, funext fun y => (hx y).choose_spec⟩
  subst hxr
  rw [outR_eq]
  exact attnRow_real (fun d => xr (ix3 b j d)) (fun i d => xr (ix3 b i d)) d

theorem arrK_eq_arrR (x : SX.Idx → EReal) (hx : ∀ y, ∃ r : ℝ, x y = (r : EReal)) : arrK x = arrR x :=
  funext fun y => outK_eq_outR x hx (y 0) (y 1) (y 2)

end Cert.Attn

end
-- ==== Proof.FiniteInputs.lean ====
/-
  From the printed precondition to "every entry is a real number".

  The printed predicate compares |x| with the pattern of +∞ elementwise and reduces the comparisons by `and` over every
  axis, from 1. If the result is 1 then every comparison is 1, that is, max (x y) (-(x y)) < ⊤ at every index y. An
  extended real is ⊥, ⊤ or a real; at ⊥ and at ⊤ the maximum of the entry and its negation is ⊤, which is not below ⊤,
  so the entry is a real.
-/
import proofs.«424366_j67353677136176_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn

open Idealize.ShloMosaic

/-- The pattern 0x7F800000 denotes +∞. -/
theorem ofBits_posInf : Ideal.ofBits .f32 0x7F800000#32 = (⊤ : EReal) := by
  simp [Ideal.ofBits, Ideal.ieee]

/-- An extended real whose maximum with its negation is below ⊤ is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the printed precondition every entry of the argument is a real number. -/
theorem real_of_finite (x : FVec Ideal Cert.Pre_finite_inputs.S16x2048x512 .f32)
    (h : Cert.Pre_finite_inputs.fn (F := Ideal) x = fun _ => 1#1) : ∀ y, ∃ r : ℝ, x y = (r : EReal) := by
  intro y
  haveI : Subsingleton Cert.Pre_finite_inputs.S_.Idx := ⟨fun a b => funext fun d => d.elim0⟩
  have h0 := congrFun h ValueIdx.ix0
  dsimp only [Cert.Pre_finite_inputs.fn] at h0
  have hy := Host.reduce_andi_all _ _ _ _ _ h0 y
  have hc : Ideal.cmp .olt (max (x y) (-(x y))) (Ideal.ofBits .f32 0x7F800000#32) = 1#1 := hy
  rw [ofBits_posInf] at hc
  refine real_of_abs_lt_top (x y) ?_
  by_contra hn
  simp [Ideal.cmp, hn] at hc

end Cert.Attn

end
-- ==== Proof.lean ====
/-
  Unscaled self-attention of x : f32[16, 2048, 512] with itself, as one pallas_call over a 16 × 4 grid, against the
  jnp reference `einsum('bid,bij->bjd', x, softmax(einsum('bid,bjd->bij', x, x), axis=1))`.

  The kernel, per batch b and query tile, computes the scores q·kᵀ of 512 query rows against all 2048 rows, subtracts
  each row's maximum, exponentiates, sums the weighted value rows by a second matrix product and divides ONCE by the
  weights' sum. The reference forms the full score matrix (symmetric, since queries, keys and values are the same
  rows), normalises the exponentials down its first row axis and only then contracts with the value rows. At the
  ideal values a change of float format is the identity, a matrix product into zeros is the plain sum of products, and
  the two maxima fold `max` over the same scores; what differs is where the quotient stands,

      (∑ i, w i · v i) / D   against   ∑ i, (w i / D) · v i ,      D = ∑ i, w i ,

  which is distributivity and holds because the inputs are finite: then every score, the maximum and every weight
  are real numbers and D is a positive real.

  The frames of the two kernel programs are proved by hand (the pipeline hands the one argument array to two input
  windows); the reference's frame is its run with the result dropped. The ideal pass rewrote nothing, so `preserves`
  has no conjunct.
-/
import proofs.«424366_j67353677136176_3_alg».proof.Defs
import proofs.«424366_j67353677136176_3_alg».proof.Proof.Gen.Kernel
import proofs.«424366_j67353677136176_3_alg».proof.Proof.Gen.KernelIdeal
import proofs.«424366_j67353677136176_3_alg».proof.Proof.Gen.ReferenceIdeal
import proofs.«424366_j67353677136176_3_alg».proof.Proof.Gen.Pre_finite_inputs
import proofs.«424366_j67353677136176_3_alg».proof.Proof.Gen.ReferenceIdeal.Run
import proofs.«424366_j67353677136176_3_alg».proof.Proof.Gen.ReferenceIdeal.Read
import proofs.«424366_j67353677136176_3_alg».proof.Proof.FrameBits
import proofs.«424366_j67353677136176_3_alg».proof.Proof.FrameIdeal
import proofs.«424366_j67353677136176_3_alg».proof.Proof.BlocksIdeal
import proofs.«424366_j67353677136176_3_alg».proof.Proof.RefValue
import proofs.«424366_j67353677136176_3_alg».proof.Proof.AttnLaw
import proofs.«424366_j67353677136176_3_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_k : Cert.frame_Kernel := fun m ρ _ => Cert.Kernel.Hand.frame m ρ

/-- The idealized kernel likewise. -/
theorem frame_ki : Cert.frame_KernelIdeal := fun m ρ _ => Cert.KernelIdeal.Hand.frame m ρ

/-- The reference runs and leaves its argument as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array is the attention output with the quotient taken once
    (`arrK`), the reference's the one with the weights normalised first (`arrR`), of arguments that agree; over finite
    inputs the two are one function. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v12_eq _).trans ((Cert.ReferenceIdeal.RefValue.ref_eq _).trans
    (Cert.Attn.arrK_eq_arrR _ (Cert.Attn.real_of_finite _ (hpre c))).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
